-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S16x1024x768 : Shape := ⟨3, ![16, 1024, 768]⟩
abbrev S512x1024 : Shape := ⟨2, ![512, 1024]⟩
abbrev S512 : Shape := ⟨1, ![512]⟩
abbrev S512x768 : Shape := ⟨2, ![512, 768]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S16x1024x768 : S_.BroadcastsInDim S16x1024x768 (![] : Fin 0 → Fin S16x1024x768.rank)
  reducesTo_S16x1024x768_S_d0_1_2 : S16x1024x768.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_

variable [Facts]

def fn_part1 {F : FTy → Type} [FloatOps F] (main_arg4 : FVec F S512x768 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x768 .f32 := Host.absf main_arg4
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S16x1024x1024 .f32) (main_arg1 : FVec F S16x1024x768 .f32) (main_arg2 : FVec F S512x1024 .f32) (main_arg3 : FVec F S512 .f32) (main_arg4 : FVec F S512x768 .f32) (main_arg5 : FVec F S512 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x768 .f32 := Host.absf main_arg1
  let main_cst_0 : FVec F S_ .f32 := constant S_ .f32 0x7F800000#32
  let main_v5 : FVec F S16x1024x768 .f32 := broadcastInDim S16x1024x768 ![] bcast_S_S16x1024x768 main_cst_0
  let main_v6 : IVec S16x1024x768 1 := cmpf .olt main_v4 main_v5
  let main_c_1 : IVec S_ 1 := constantI S_ 1 1#1
  let main_v7 : IVec S_ 1 := (fun x v => Host.reduce IntOp.andi x v reducesTo_S16x1024x768_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S16x1024x1024 : Shape := ⟨3, ![16, 1024, 1024]⟩
abbrev S16x1024x768 : Shape := ⟨3, ![16, 1024, 768]⟩
abbrev S512x1024 : Shape := ⟨2, ![512, 1024]⟩
abbrev S512 : Shape := ⟨1, ![512]⟩
abbrev S512x768 : Shape := ⟨2, ![512, 768]⟩
abbrev S16384x1024 : Shape := ⟨2, ![16384, 1024]⟩
abbrev S16384x768 : Shape := ⟨2, ![16384, 768]⟩
abbrev S1x512 : Shape := ⟨2, ![1, 512]⟩
abbrev S16384x512 : Shape := ⟨2, ![16384, 512]⟩
abbrev S1024x1024 : Shape := ⟨2, ![1024, 1024]⟩
abbrev S1024x512 : Shape := ⟨2, ![1024, 512]⟩
abbrev S16x1024x512 : Shape := ⟨3, ![16, 1024, 512]⟩
abbrev S1024x768 : Shape := ⟨2, ![1024, 768]⟩
abbrev S768x512 : Shape := ⟨2, ![768, 512]⟩
abbrev S1x1024x512 : Shape := ⟨3, ![1, 1024, 512]⟩
abbrev S1x1024x1024 : Shape := ⟨3, ![1, 1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 15
  | .vmem => 18
  | .smem => 0
  | _ => 0

abbrev bufTy : (tb : Table) → Fin (tcTables nBuf tb) → BufTy
  | .hbm, ⟨0, _⟩ => ⟨S16x1024x1024, .f32⟩
  | .hbm, ⟨1, _⟩ => ⟨S16x1024x768, .f32⟩
  | .hbm, ⟨2, _⟩ => ⟨S512x1024, .f32⟩
  | .hbm, ⟨3, _⟩ => ⟨S512, .f32⟩
  | .hbm, ⟨4, _⟩ => ⟨S512x768, .f32⟩
  | .hbm, ⟨5, _⟩ => ⟨S512, .f32⟩
  | .hbm, ⟨6, _⟩ => ⟨S16384x1024, .f32⟩
  | .hbm, ⟨7, _⟩ => ⟨S16384x768, .f32⟩
  | .hbm, ⟨8, _⟩ => ⟨S1x512, .f32⟩
  | .hbm, ⟨9, _⟩ => ⟨S16384x512, .f32⟩
  | .hbm, ⟨10, _⟩ => ⟨S16x1024x512, .f32⟩
  | .hbm, ⟨11, _⟩ => ⟨S1x512, .f32⟩
  | .hbm, ⟨12, _⟩ => ⟨S16384x512, .f32⟩
  | .hbm, ⟨13, _⟩ => ⟨S16x1024x512, .f32⟩
  | .hbm, ⟨14, _⟩ => ⟨S16x1024x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x768, .f32⟩
  | .local _ .vmem, ⟨7, _⟩ => ⟨S1024x768, .f32⟩
  | .local _ .vmem, ⟨8, _⟩ => ⟨S512x768, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x1024, .f32⟩
  | .local _ .vmem, ⟨17, _⟩ => ⟨S1x1024x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S16x1024x1024_S16384x1024 : S16x1024x1024.ShapeCasts S16384x1024
  shapeCasts_S16x1024x768_S16384x768 : S16x1024x768.ShapeCasts S16384x768
  shapeCasts_S512_S1x512 : S512.ShapeCasts S1x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S16384x512_S16x1024x512 : S16384x512.ShapeCasts S16x1024x512
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S512x768_S512x768_0_0 : ∀ a, (![0, 0] : Fin 2 → Nat) a + S512x768.size a ≤ S512x768.size a
  h_S512x768 : 0 < S512x768.numel
  transposes_S512x768_p1_0_S768x512 : S512x768.Transposes [1, 0] S768x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  transposes_S1024x512_p1_0_S512x1024 : S1024x512.Transposes [1, 0] S512x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x1024_S1024x512_S1024x512_1_0_0_1_n_n_wf : DotDims.WF S1024x1024 S1024x512 S1024x512 [1] [0] [0] [1] [] []
  dot_S1024x768_S768x512_S1024x512_1_0_0_1_n_n_wf : DotDims.WF S1024x768 S768x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S16384x768.size a
  hwx1_0 : ∀ i : grid1.Coords, EltTy.bits .f32 = 32 ∨ (Rect.block (s := S16384x768) S1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x768.size a ≤ S512x768.size a
  hwx1_1 : ∀ i : grid1.Coords, EltTy.bits .f32 = 32 ∨ (Rect.block (s := S512x768) S512x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S16384x512.size a
  hwx1_3 : ∀ i : grid1.Coords, EltTy.bits .f32 = 32 ∨ (Rect.block (s := S16384x512) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x512.size a ≤ S16x1024x512.size a
  hwx2_0 : ∀ i : grid2.Coords, EltTy.bits .f32 = 32 ∨ (Rect.block (s := S16x1024x512) S1x1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x512.size a ≤ S16x1024x512.size a
  hwx2_1 : ∀ i : grid2.Coords, EltTy.bits .f32 = 32 ∨ (Rect.block (s := S16x1024x512) S1x1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1024.size a ≤ S16x1024x1024.size a
  hwx2_2 : ∀ i : grid2.Coords, EltTy.bits .f32 = 32 ∨ (Rect.block (s := S16x1024x1024) S1x1024x1024.size (cc2_transform_2 i) (hinb2_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S1x1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16x1024x1024 : Shape := ⟨3, ![16, 1024, 1024]⟩
abbrev S16x1024x768 : Shape := ⟨3, ![16, 1024, 768]⟩
abbrev S512x1024 : Shape := ⟨2, ![512, 1024]⟩
abbrev S512 : Shape := ⟨1, ![512]⟩
abbrev S512x768 : Shape := ⟨2, ![512, 768]⟩
abbrev S16x1024x512 : Shape := ⟨3, ![16, 1024, 512]⟩
abbrev S1x1x512 : Shape := ⟨3, ![1, 1, 512]⟩
abbrev S_ : Shape := ⟨0, ![]⟩
abbrev S16x1024 : Shape := ⟨2, ![16, 1024]⟩
abbrev S16x1024x1 : Shape := ⟨3, ![16, 1024, 1]⟩
abbrev S16x1x1024 : Shape := ⟨3, ![16, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x768, .f32⟩
  | .hbm, ⟨2, _⟩ => ⟨S512x1024, .f32⟩
  | .hbm, ⟨3, _⟩ => ⟨S512, .f32⟩
  | .hbm, ⟨4, _⟩ => ⟨S512x768, .f32⟩
  | .hbm, ⟨5, _⟩ => ⟨S512, .f32⟩
  | .hbm, ⟨6, _⟩ => ⟨S16x1024x512, .f32⟩
  | .hbm, ⟨7, _⟩ => ⟨S1x1x512, .f32⟩
  | .hbm, ⟨8, _⟩ => ⟨S16x1024x512, .f32⟩
  | .hbm, ⟨9, _⟩ => ⟨S16x1024x512, .f32⟩
  | .hbm, ⟨10, _⟩ => ⟨S16x1024x512, .f32⟩
  | .hbm, ⟨11, _⟩ => ⟨S1x1x512, .f32⟩
  | .hbm, ⟨12, _⟩ => ⟨S16x1024x512, .f32⟩
  | .hbm, ⟨13, _⟩ => ⟨S16x1024x512, .f32⟩
  | .hbm, ⟨14, _⟩ => ⟨S16x1024x1024, .f32⟩
  | .hbm, ⟨15, _⟩ => ⟨S16x1024x512, .f32⟩
  | .hbm, ⟨16, _⟩ => ⟨S_, .f32⟩
  | .hbm, ⟨17, _⟩ => ⟨S16x1024, .f32⟩
  | .hbm, ⟨18, _⟩ => ⟨S16x1024, .f32⟩
  | .hbm, ⟨19, _⟩ => ⟨S16x1024x512, .f32⟩
  | .hbm, ⟨20, _⟩ => ⟨S_, .f32⟩
  | .hbm, ⟨21, _⟩ => ⟨S16x1024, .f32⟩
  | .hbm, ⟨22, _⟩ => ⟨S16x1024, .f32⟩
  | .hbm, ⟨23, _⟩ => ⟨S16x1024x1, .f32⟩
  | .hbm, ⟨24, _⟩ => ⟨S16x1x1024, .f32⟩
  | .hbm, ⟨25, _⟩ => ⟨S16x1024x1024, .f32⟩
  | .hbm, ⟨26, _⟩ => ⟨S16x1024x1024, .f32⟩
  | .hbm, ⟨27, _⟩ => ⟨S16x1024x1024, .f32⟩
  | .hbm, ⟨28, _⟩ => ⟨S_, .f32⟩
  | .hbm, ⟨29, _⟩ => ⟨S16x1024x1024, .f32⟩
  | .hbm, ⟨30, _⟩ => ⟨S16x1024x1024, .f32⟩
  | .hbm, ⟨31, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x1024x512_0_1_2 : S1x1x512.BroadcastsInDim S16x1024x512 (![0, 1, 2] : Fin 3 → Fin S16x1024x512.rank)
  reducesTo_S16x1024x512_S16x1024_d2 : S16x1024x512.ReducesTo [2] S16x1024
  h_S_ : 0 < S_.numel
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  bcast_S_S16x1024x1024 : S_.BroadcastsInDim S16x1024x1024 (![] : Fin 0 → Fin S16x1024x1024.rank)
  dot_S16x1024x1024_S512x1024_S16x1024x512_2_1_01_0_n_n_wf : DotDims.WF S16x1024x1024 S512x1024 S16x1024x512 [2] [1] [0, 1] [0] [] []
  dot_S16x1024x768_S512x768_S16x1024x512_2_1_01_0_n_n_wf : DotDims.WF S16x1024x768 S512x768 S16x1024x512 [2] [1] [0, 1] [0] [] []
  dot_S16x1024x512_S16x1024x512_S16x1024x1024_2_2_1_1_0_0_wf : DotDims.WF S16x1024x512 S16x1024x512 S16x1024x1024 [2] [2] [1] [1] [0] [0]

variable [Facts₀]

def dot_S16x1024x1024_S512x1024_S16x1024x512_2_1_01_0_n_n : DotDims S16x1024x1024 S512x1024 S16x1024x512 where
  lhsContracting := [2]
  rhsContracting := [1]
  lhsNonContracting := [0, 1]
  rhsNonContracting := [0]
  lhsBatch := []
  rhsBatch := []
  wf := dot_S16x1024x1024_S512x1024_S16x1024x512_2_1_01_0_n_n_wf
def dot_S16x1024x768_S512x768_S16x1024x512_2_1_01_0_n_n : DotDims S16x1024x768 S512x768 S16x1024x512 where
  lhsContracting := [2]
  rhsContracting := [1]
  lhsNonContracting := [0, 1]
  rhsNonContracting := [0]
  lhsBatch := []
  rhsBatch := []
  wf := dot_S16x1024x768_S512x768_S16x1024x512_2_1_01_0_n_n_wf
def dot_S16x1024x512_S16x1024x512_S16x1024x1024_2_2_1_1_0_0 : DotDims S16x1024x512 S16x1024x512 S16x1024x1024 where
  lhsContracting := [2]
  rhsContracting := [2]
  lhsNonContracting := [1]
  rhsNonContracting := [1]
  lhsBatch := [0]
  rhsBatch := [0]
  wf := dot_S16x1024x512_S16x1024x512_S16x1024x1024_2_2_1_1_0_0_wf

class Facts : Prop extends Facts₀ where

variable [Facts]
-- ==== Proof.Spec.lean ====
/-
  The function both programs compute, over the extended reals.

  Two affine projections take a batch of 16 sequences of 1024 feature rows to 512 coordinates each:
  `proj x W β b s h = ∑ d, x b s d · W h d + β h`. For each batch entry `b` the result is the matrix of cosine
  similarities between the rows of the two projections: the inner product of row `i` of the first with row `j` of the
  second, divided by the product of the two rows' Euclidean norms, that product kept no smaller than a fixed small
  constant.
-/
import Idealize.ShloMosaic.Lib.ValueIdx
import Idealize.ShloMosaic.PureOps.Ideal.Laws

noncomputable section

namespace Cert.Spec

open Idealize.ShloMosaic Idealize.ShloMosaic.ValueIdx

/-- An affine projection of every row: entry `h` of row `(b, s)` is `∑ d, x b s d · W h d + β h`. -/
def proj {D : ℕ} (x : Fin 16 → Fin 1024 → Fin D → EReal) (W : Fin 512 → Fin D → EReal) (β : Fin 512 → EReal)
    (b : Fin 16) (s : Fin 1024) (h : Fin 512) : EReal :=
  (∑ d : Fin D, x b s d * W h d) + β h

/-- The floor under the product of norms: the single-precision number nearest to 1e-8. -/
def floor : EReal := Ideal.ofBits .f32 0x322BCC77#32

/-- The cosine similarity of row `i` of `v` and row `j` of `t` within batch entry `b`: their inner product over the
    product of their Euclidean norms, the product floored. -/
def cosine (v t : Fin 16 → Fin 1024 → Fin 512 → EReal) (b : Fin 16) (i j : Fin 1024) : EReal :=
  Ideal.div (∑ h : Fin 512, v b i h * t b j h)
    (max (Ideal.sqrt (∑ h : Fin 512, v b i h * v b i h) * Ideal.sqrt (∑ h : Fin 512, t b j h * t b j h)) floor)

/-- The whole result as an array of the six argument arrays: the cosine similarities of the two projections. -/
def G (a0 : (⟨3, ![16, 1024, 1024]⟩ : Shape).Idx → EReal) (a1 : (⟨3, ![16, 1024, 768]⟩ : Shape).Idx → EReal)
    (a2 : (⟨2, ![512, 1024]⟩ : Shape).Idx → EReal) (a3 : (⟨1, ![512]⟩ : Shape).Idx → EReal)
    (a4 : (⟨2, ![512, 768]⟩ : Shape).Idx → EReal) (a5 : (⟨1, ![512]⟩ : Shape).Idx → EReal) :
    (⟨3, ![16, 1024, 1024]⟩ : Shape).Idx → EReal :=
  fun i => cosine (proj (fun b s d => a0 (ix3 b s d)) (fun h d => a2 (ix2 h d)) (fun h => a3 (ix1 h)))
    (proj (fun b s d => a1 (ix3 b s d)) (fun h d => a4 (ix2 h d)) (fun h => a5 (ix1 h))) (i 0) (i 1) (i 2)

end Cert.Spec

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Region0.lean ====
import proofs.«153177_j49005576847522_1_alg».proof.Defs
import proofs.«153177_j49005576847522_1_alg».proof.Proof.Gen.KernelIdeal.Frame
import proofs.«153177_j49005576847522_1_alg».proof.Proof.Spec
import proofs.«153177_j49005576847522_1_alg».proof.Proof.LibDense
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The input rows, the weight matrix and the one-row bias as the region finds them, as arrays of extended reals. -/
abbrev xarr (c : Dev nD) : S16384x1024.Idx → EReal := V c main_v0
abbrev warr (c : Dev nD) : S512x1024.Idx → EReal := V c main_arg2
abbrev barr (c : Dev nD) : S1x512.Idx → EReal := V c main_v2

/-! ## One tile: 1024 rows against the whole weight matrix -/

/-- The tile product contracts the left operand's columns against the right operand's rows and has no batch axis. -/
theorem tile_dims : dot_S1024x1024_S1024x512_S1024x512_1_0_0_1_n_n = DotDims.plain 1024 1024 512 := rfl

/-- Row `d`, column `h` of the transposed weights is row `h`, column `d` of the weights. -/
theorem weights_transposed (x1 : FVec Ideal S512x1024 .bf16) (d : Fin 1024) (h : Fin 512) :
    transpose S1024x512 [1, 0] x1 Facts₀.transposes_S512x1024_p1_0_S1024x512 (ix2 d h) = x1 (ix2 h d) := by
  refine transpose_apply [1, 0] x1 _ (ix2 d h) (ix2 h d) fun b => ?_
  match b with
  | ⟨0, _⟩ => rfl
  | ⟨1, _⟩ => rfl

/-- What one tile's body computes at row `p` and column `h` of the tile: the inner product of the tile's row `p` with
    row `h` of the weights, plus the bias entry `h`. Rounding the operands to a narrower format changes nothing over
    the extended reals. -/
theorem tile_apply (x0 : Vec Ideal S1024x1024 .f32) (x1 : Vec Ideal S512x1024 .f32) (x2 : Vec Ideal S1x512 .f32)
    (p : Fin 1024) (h : Fin 512) :
    k0_pay1 x0 x1 x2 (ix2 p h) = (∑ d : Fin 1024, x0 (ix2 p d) * x1 (ix2 h d)) + x2 (ix2 (0 : Fin 1) h) := by
  unfold k0_pay1
  rw [tile_dims, shapeCast_self, shapeCast_self]
  refine (addf_apply _ _ _).trans ?_
  refine (congrArg₂ (· + ·) (Cert.LibDense.matmul_plain_zero_apply none _ _ p h) (broadcastTo_1b_ab_apply x2 _ p h)).trans ?_
  refine congrArg (· + x2 (ix2 (0 : Fin 1) h)) (Finset.sum_congr rfl fun d _ => ?_)
  rw [truncf_apply, weights_transposed, truncf_apply]

/-- The same with the three operands and the result read off larger arrays: if the tile's row `p` is row `i 0` of
    `X`, the weights are `W` and the bias row is `B`, the tile's entry `(p, h)` is the affine form of row `i 0` at
    column `i 1 = h`. -/
theorem tile_of_arrays (x0 : Vec Ideal S1024x1024 .f32) (x1 : Vec Ideal S512x1024 .f32) (x2 : Vec Ideal S1x512 .f32)
    (X : S16384x1024.Idx → EReal) (W : S512x1024.Idx → EReal) (B : S1x512.Idx → EReal)
    (p : Fin 1024) (h : Fin 512) (i : S16384x512.Idx)
    (h0 : ∀ d : Fin 1024, x0 (ix2 p d) = X (ix2 (i 0) d))
    (h1 : ∀ d : Fin 1024, x1 (ix2 h d) = W (ix2 (i 1) d))
    (h2 : x2 (ix2 (0 : Fin 1) h) = B (ix2 (0 : Fin 1) (i 1))) :
    k0_pay1 x0 x1 x2 (ix2 p h)
      = (∑ d : Fin 1024, X (ix2 (i 0) d) * W (ix2 (i 1) d)) + B (ix2 (0 : Fin 1) (i 1)) := by
  rw [tile_apply, h2]
  refine congrArg (· + B (ix2 (0 : Fin 1) (i 1))) (Finset.sum_congr rfl fun d _ => ?_)
  rw [h0, h1]

/-! ## Where each tile's operands and result sit in the arrays -/

/-- A block stored or loaded whole starts at offset zero on both axes. -/
theorem zero_offsets : (![0, 0] : Fin 2 → Nat) = fun _ => 0 := funext fun a => by fin_cases a <;> rfl

/-- At tile `t` the input rows and the output rows are block `t` along the rows; the weights and the bias are read whole. -/
theorem tile_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the input tile `t` is row `1024 t + p` of the input. -/
theorem input_tile_apply (c : Dev nD) (t : Fin cfg0.N) (p d : Fin 1024) (r : Fin 16384) (hr : r.val = 1024 * t.val + p.val) :
    (iblk0 V c 0 t : Vec Ideal S1024x1024 .f32) (ix2 p d) = xarr V c (ix2 r d) := by
  obtain ⟨e0, e1, -⟩ := tile_indices t
  show V c main_v0 (((cfg0.win 0).blk t).view.emb (ix2 p d)) = V c main_v0 (ix2 r d)
  refine congrArg (V c main_v0) (funext fun a => Fin.ext ?_)
  match a with
  | ⟨0, _⟩ => show win0_0.index t (0 : Fin 2) * 1024 + 1 * p.val = r.val; omega
  | ⟨1, _⟩ => show win0_0.index t (1 : Fin 2) * 1024 + 1 * d.val = d.val; omega

/-- The weights' one block is the whole matrix. -/
theorem weights_tile_apply (c : Dev nD) (t : Fin cfg0.N) (h : Fin 512) (d : Fin 1024) (h' : Fin 512) (hh : h'.val = h.val) :
    (iblk0 V c 1 t : Vec Ideal S512x1024 .f32) (ix2 h d) = warr V c (ix2 h' d) := by
  obtain ⟨-, -, e0, e1, -⟩ := tile_indices t
  show V c main_arg2 (((cfg0.win 1).blk t).view.emb (ix2 h d)) = V c main_arg2 (ix2 h' d)
  refine congrArg (V c main_arg2) (funext fun a => Fin.ext ?_)
  match a with
  | ⟨0, _⟩ => show win0_1.index t (0 : Fin 2) * 512 + 1 * h.val = h'.val; omega
  | ⟨1, _⟩ => show win0_1.index t (1 : Fin 2) * 1024 + 1 * d.val = d.val; omega

/-- The bias's one block is the whole row. -/
theorem bias_tile_apply (c : Dev nD) (t : Fin cfg0.N) (h : Fin 512) (h' : Fin 512) (hh : h'.val = h.val) :
    (iblk0 V c 2 t : Vec Ideal S1x512 .f32) (ix2 (0 : Fin 1) h) = barr V c (ix2 (0 : Fin 1) h') := by
  obtain ⟨-, -, -, -, e0, e1, -⟩ := tile_indices t
  show V c main_v2 (((cfg0.win 2).blk t).view.emb (ix2 (0 : Fin 1) h)) = V c main_v2 (ix2 (0 : Fin 1) h')
  refine congrArg (V c main_v2) (funext fun a => Fin.ext ?_)
  match a with
  | ⟨0, _⟩ => show win0_2.index t (0 : Fin 2) * 1 + 1 * 0 = 0; omega
  | ⟨1, _⟩ => show win0_2.index t (1 : Fin 2) * 512 + 1 * h.val = h'.val; omega

/-! ## The output array -/

/-- Every row's affine form: what the output array holds after all the tiles. -/
abbrev affineRows (c : Dev nD) : S16384x512.Idx → EReal := fun i =>
  (∑ d : Fin 1024, xarr V c (ix2 (i 0) d) * warr V c (ix2 (i 1) d)) + barr V c (ix2 (0 : Fin 1) (i 1))

/-- Tile `t` writes back rows `1024 t … 1024 t + 1023` of the affine forms. -/
theorem tile_written (c : Dev nD) (t : Fin cfg0.N) :
    (dat0 V c).flushed 3 t = ((cfg0.win 3).blk t).view.read (Elt Ideal) (affineRows V c) := by
  show (cfg0.win 3).cut (grid0.coords t) ((dat0 V c).after 3 t) = _
  rw [after0_3]
  unfold out0_3
  rw [View.canon_unit_zero zero_offsets]
  simp only [View.ld_unit_zero (S := S1024x1024) zero_offsets, View.ld_unit_zero (S := S512x1024) zero_offsets,
    View.ld_unit_zero (S := S1x512) zero_offsets]
  obtain ⟨-, -, -, -, -, -, e0, e1⟩ := tile_indices t
  funext j
  obtain ⟨p, h, rfl⟩ : ∃ (p : Fin 1024) (h : Fin 512), j = ix2 p h := ⟨j 0, j 1, eq_ix2 j⟩
  have hr : ((((cfg0.win 3).blk t).view.emb (ix2 p h)) 0).val = 1024 * t.val + p.val := by
    show win0_3.index t (0 : Fin 2) * 1024 + 1 * p.val = _; omega
  have hc : ((((cfg0.win 3).blk t).view.emb (ix2 p h)) 1).val = h.val := by
    show win0_3.index t (1 : Fin 2) * 512 + 1 * h.val = _; omega
  exact tile_of_arrays (iblk0 V c 0 t) (iblk0 V c 1 t) (iblk0 V c 2 t) (xarr V c) (warr V c) (barr V c) p h
    (((cfg0.win 3).blk t).view.emb (ix2 p h))
    (fun d => input_tile_apply V c t p d _ hr) (fun d => weights_tile_apply V c t h d _ hc) (bias_tile_apply V c t h _ hc)

/-- An index is in tile `t`'s block of the output array iff each coordinate is in the block's range on its axis. -/
theorem mem_tile (t : Fin cfg0.N) (i : S16384x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v3).slice (win0_3.rect t)).set ↔ _
  rw [View.set_slice_whole, Rect.mem_set_unit]
  exact Iff.rfl

/-- Row `r` is written by tile `r / 1024`. -/
theorem tiles_cover (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  have hN : cfg0.N = 16 := N_0
  refine ⟨⟨(i 0).val / 1024, by rw [hN]; omega⟩, flush0_3 _, ?_⟩
  obtain ⟨-, -, -, -, -, -, e0, e1⟩ := tile_indices ⟨(i 0).val / 1024, by rw [hN]; omega⟩
  rw [mem_tile]
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 512 ≤ (i 1).val ∧ (i 1).val < win0_3.index _ (1 : Fin 2) * 512 + 512
    rw [e1]; omega

/-- After the first projection's sixteen row tiles, the output array holds, at row `r` and column `h`, the inner product of row
    `r` of the input with row `h` of the weights, plus the bias entry `h`. -/
theorem value (c : Dev nD) :
    (dat0 V c).arrAt 3 cfg0.N = fun i : S16384x512.Idx =>
      (∑ d : Fin 1024, xarr V c (ix2 (i 0) d) * warr V c (ix2 (i 1) d)) + barr V c (ix2 (0 : Fin 1) (i 1)) :=
  (dat0 V c).arrAt_eq_of_cover 3 (affineRows V c) (fun t _ => tile_written V c t) tiles_cover

end Cert.KernelIdeal.Region0

end
-- ==== Proof.Region1.lean ====
import proofs.«153177_j49005576847522_1_alg».proof.Defs
import proofs.«153177_j49005576847522_1_alg».proof.Proof.Gen.KernelIdeal.Frame
import proofs.«153177_j49005576847522_1_alg».proof.Proof.Spec
import proofs.«153177_j49005576847522_1_alg».proof.Proof.LibDense
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The input rows, the weight matrix and the one-row bias as the region finds them, as arrays of extended reals. -/
abbrev xarr (c : Dev nD) : S16384x768.Idx → EReal := V c main_v1
abbrev warr (c : Dev nD) : S512x768.Idx → EReal := V c main_arg4
abbrev barr (c : Dev nD) : S1x512.Idx → EReal := V c main_v5

/-! ## One tile: 1024 rows against the whole weight matrix -/

/-- The tile product contracts the left operand's columns against the right operand's rows and has no batch axis. -/
theorem tile_dims : dot_S1024x768_S768x512_S1024x512_1_0_0_1_n_n = DotDims.plain 1024 768 512 := rfl

/-- Row `d`, column `h` of the transposed weights is row `h`, column `d` of the weights. -/
theorem weights_transposed (x1 : FVec Ideal S512x768 .bf16) (d : Fin 768) (h : Fin 512) :
    transpose S768x512 [1, 0] x1 Facts₀.transposes_S512x768_p1_0_S768x512 (ix2 d h) = x1 (ix2 h d) := by
  refine transpose_apply [1, 0] x1 _ (ix2 d h) (ix2 h d) fun b => ?_
  match b with
  | ⟨0, _⟩ => rfl
  | ⟨1, _⟩ => rfl

/-- What one tile's body computes at row `p` and column `h` of the tile: the inner product of the tile's row `p` with
    row `h` of the weights, plus the bias entry `h`. Rounding the operands to a narrower format changes nothing over
    the extended reals. -/
theorem tile_apply (x0 : Vec Ideal S1024x768 .f32) (x1 : Vec Ideal S512x768 .f32) (x2 : Vec Ideal S1x512 .f32)
    (p : Fin 1024) (h : Fin 512) :
    k1_pay1 x0 x1 x2 (ix2 p h) = (∑ d : Fin 768, x0 (ix2 p d) * x1 (ix2 h d)) + x2 (ix2 (0 : Fin 1) h) := by
  unfold k1_pay1
  rw [tile_dims, shapeCast_self, shapeCast_self]
  refine (addf_apply _ _ _).trans ?_
  refine (congrArg₂ (· + ·) (Cert.LibDense.matmul_plain_zero_apply none _ _ p h) (broadcastTo_1b_ab_apply x2 _ p h)).trans ?_
  refine congrArg (· + x2 (ix2 (0 : Fin 1) h)) (Finset.sum_congr rfl fun d _ => ?_)
  rw [truncf_apply, weights_transposed, truncf_apply]

/-- The same with the three operands and the result read off larger arrays: if the tile's row `p` is row `i 0` of
    `X`, the weights are `W` and the bias row is `B`, the tile's entry `(p, h)` is the affine form of row `i 0` at
    column `i 1 = h`. -/
theorem tile_of_arrays (x0 : Vec Ideal S1024x768 .f32) (x1 : Vec Ideal S512x768 .f32) (x2 : Vec Ideal S1x512 .f32)
    (X : S16384x768.Idx → EReal) (W : S512x768.Idx → EReal) (B : S1x512.Idx → EReal)
    (p : Fin 1024) (h : Fin 512) (i : S16384x512.Idx)
    (h0 : ∀ d : Fin 768, x0 (ix2 p d) = X (ix2 (i 0) d))
    (h1 : ∀ d : Fin 768, x1 (ix2 h d) = W (ix2 (i 1) d))
    (h2 : x2 (ix2 (0 : Fin 1) h) = B (ix2 (0 : Fin 1) (i 1))) :
    k1_pay1 x0 x1 x2 (ix2 p h)
      = (∑ d : Fin 768, X (ix2 (i 0) d) * W (ix2 (i 1) d)) + B (ix2 (0 : Fin 1) (i 1)) := by
  rw [tile_apply, h2]
  refine congrArg (· + B (ix2 (0 : Fin 1) (i 1))) (Finset.sum_congr rfl fun d _ => ?_)
  rw [h0, h1]

/-! ## Where each tile's operands and result sit in the arrays -/

/-- A block stored or loaded whole starts at offset zero on both axes. -/
theorem zero_offsets : (![0, 0] : Fin 2 → Nat) = fun _ => 0 := funext fun a => by fin_cases a <;> rfl

/-- At tile `t` the input rows and the output rows are block `t` along the rows; the weights and the bias are read whole. -/
theorem tile_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the input tile `t` is row `1024 t + p` of the input. -/
theorem input_tile_apply (c : Dev nD) (t : Fin cfg1.N) (p : Fin 1024) (d : Fin 768) (r : Fin 16384)
    (hr : r.val = 1024 * t.val + p.val) :
    (iblk1 V c 0 t : Vec Ideal S1024x768 .f32) (ix2 p d) = xarr V c (ix2 r d) := by
  obtain ⟨e0, e1, -⟩ := tile_indices t
  show V c main_v1 (((cfg1.win 0).blk t).view.emb (ix2 p d)) = V c main_v1 (ix2 r d)
  refine congrArg (V c main_v1) (funext fun a => Fin.ext ?_)
  match a with
  | ⟨0, _⟩ => show win1_0.index t (0 : Fin 2) * 1024 + 1 * p.val = r.val; omega
  | ⟨1, _⟩ => show win1_0.index t (1 : Fin 2) * 768 + 1 * d.val = d.val; omega

/-- The weights' one block is the whole matrix. -/
theorem weights_tile_apply (c : Dev nD) (t : Fin cfg1.N) (h : Fin 512) (d : Fin 768) (h' : Fin 512) (hh : h'.val = h.val) :
    (iblk1 V c 1 t : Vec Ideal S512x768 .f32) (ix2 h d) = warr V c (ix2 h' d) := by
  obtain ⟨-, -, e0, e1, -⟩ := tile_indices t
  show V c main_arg4 (((cfg1.win 1).blk t).view.emb (ix2 h d)) = V c main_arg4 (ix2 h' d)
  refine congrArg (V c main_arg4) (funext fun a => Fin.ext ?_)
  match a with
  | ⟨0, _⟩ => show win1_1.index t (0 : Fin 2) * 512 + 1 * h.val = h'.val; omega
  | ⟨1, _⟩ => show win1_1.index t (1 : Fin 2) * 768 + 1 * d.val = d.val; omega

/-- The bias's one block is the whole row. -/
theorem bias_tile_apply (c : Dev nD) (t : Fin cfg1.N) (h : Fin 512) (h' : Fin 512) (hh : h'.val = h.val) :
    (iblk1 V c 2 t : Vec Ideal S1x512 .f32) (ix2 (0 : Fin 1) h) = barr V c (ix2 (0 : Fin 1) h') := by
  obtain ⟨-, -, -, -, e0, e1, -⟩ := tile_indices t
  show V c main_v5 (((cfg1.win 2).blk t).view.emb (ix2 (0 : Fin 1) h)) = V c main_v5 (ix2 (0 : Fin 1) h')
  refine congrArg (V c main_v5) (funext fun a => Fin.ext ?_)
  match a with
  | ⟨0, _⟩ => show win1_2.index t (0 : Fin 2) * 1 + 1 * 0 = 0; omega
  | ⟨1, _⟩ => show win1_2.index t (1 : Fin 2) * 512 + 1 * h.val = h'.val; omega

/-! ## The output array -/

/-- Every row's affine form: what the output array holds after all the tiles. -/
abbrev affineRows (c : Dev nD) : S16384x512.Idx → EReal := fun i =>
  (∑ d : Fin 768, xarr V c (ix2 (i 0) d) * warr V c (ix2 (i 1) d)) + barr V c (ix2 (0 : Fin 1) (i 1))

/-- Tile `t` writes back rows `1024 t … 1024 t + 1023` of the affine forms. -/
theorem tile_written (c : Dev nD) (t : Fin cfg1.N) :
    (dat1 V c).flushed 3 t = ((cfg1.win 3).blk t).view.read (Elt Ideal) (affineRows V c) := by
  show (cfg1.win 3).cut (grid1.coords t) ((dat1 V c).after 3 t) = _
  rw [after1_3]
  unfold out1_3
  rw [View.canon_unit_zero zero_offsets]
  simp only [View.ld_unit_zero (S := S1024x768) zero_offsets, View.ld_unit_zero (S := S512x768) zero_offsets,
    View.ld_unit_zero (S := S1x512) zero_offsets]
  obtain ⟨-, -, -, -, -, -, e0, e1⟩ := tile_indices t
  funext j
  obtain ⟨p, h, rfl⟩ : ∃ (p : Fin 1024) (h : Fin 512), j = ix2 p h := ⟨j 0, j 1, eq_ix2 j⟩
  have hr : ((((cfg1.win 3).blk t).view.emb (ix2 p h)) 0).val = 1024 * t.val + p.val := by
    show win1_3.index t (0 : Fin 2) * 1024 + 1 * p.val = _; omega
  have hc : ((((cfg1.win 3).blk t).view.emb (ix2 p h)) 1).val = h.val := by
    show win1_3.index t (1 : Fin 2) * 512 + 1 * h.val = _; omega
  exact tile_of_arrays (iblk1 V c 0 t) (iblk1 V c 1 t) (iblk1 V c 2 t) (xarr V c) (warr V c) (barr V c) p h
    (((cfg1.win 3).blk t).view.emb (ix2 p h))
    (fun d => input_tile_apply V c t p d _ hr) (fun d => weights_tile_apply V c t h d _ hc) (bias_tile_apply V c t h _ hc)

/-- An index is in tile `t`'s block of the output array iff each coordinate is in the block's range on its axis. -/
theorem mem_tile (t : Fin cfg1.N) (i : S16384x512.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v6).slice (win1_3.rect t)).set ↔ _
  rw [View.set_slice_whole, Rect.mem_set_unit]
  exact Iff.rfl

/-- Row `r` is written by tile `r / 1024`. -/
theorem tiles_cover (i : S16384x512.Idx) :
    ∃ t : Fin cfg1.N, (cfg1.win 3).flush t = true ∧ i ∈ ((cfg1.win 3).blk t).view.set := by
  have hi0 : (i 0).val < 16384 := (i 0).isLt
  have hi1 : (i 1).val < 512 := (i 1).isLt
  have hN : cfg1.N = 16 := N_1
  refine ⟨⟨(i 0).val / 1024, by rw [hN]; omega⟩, flush1_3 _, ?_⟩
  obtain ⟨-, -, -, -, -, -, e0, e1⟩ := tile_indices ⟨(i 0).val / 1024, by rw [hN]; omega⟩
  rw [mem_tile]
  intro a
  match a with
  | ⟨0, _⟩ =>
    show win1_3.index _ (0 : Fin 2) * 1024 ≤ (i 0).val ∧ (i 0).val < win1_3.index _ (0 : Fin 2) * 1024 + 1024
    rw [e0]; show (i 0).val / 1024 * 1024 ≤ (i 0).val ∧ (i 0).val < (i 0).val / 1024 * 1024 + 1024; omega
  | ⟨1, _⟩ =>
    show win1_3.index _ (1 : Fin 2) * 512 ≤ (i 1).val ∧ (i 1).val < win1_3.index _ (1 : Fin 2) * 512 + 512
    rw [e1]; omega

/-- After the second projection's sixteen row tiles, the output array holds, at row `r` and column `h`, the inner product of
    row `r` of the input with row `h` of the weights, plus the bias entry `h`. -/
theorem value (c : Dev nD) :
    (dat1 V c).arrAt 3 cfg1.N = fun i : S16384x512.Idx =>
      (∑ d : Fin 768, xarr V c (ix2 (i 0) d) * warr V c (ix2 (i 1) d)) + barr V c (ix2 (0 : Fin 1) (i 1)) :=
  (dat1 V c).arrAt_eq_of_cover 3 (affineRows V c) (fun t _ => tile_written V c t) tiles_cover

end Cert.KernelIdeal.Region1

end
-- ==== Proof.Region2.lean ====
import proofs.«153177_j49005576847522_1_alg».proof.Defs
import proofs.«153177_j49005576847522_1_alg».proof.Proof.Gen.KernelIdeal.Frame
import proofs.«153177_j49005576847522_1_alg».proof.Proof.Spec
import proofs.«153177_j49005576847522_1_alg».proof.Proof.LibDense
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen

/-! ## Column forms of the layout operations, read at coordinates -/

section Layout
variable {α : Type}

/-- A vector of length `a` cast to one column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's arithmetic at one entry -/

section Payload

/-- The lane sum of squares of the rows of a block, as a column: at row `p` it is `∑ h, x (0, p, h)²`. -/
theorem sumsq_apply (x : Vec Ideal S1x1024x512 .f32) (p : Fin 1024) (u : Fin 1) :
    shapeCast S1024x1 (multiReduction (F := Ideal) .add [1] S1024
        (mulf (shapeCast S1024x512 x shapeCasts_S1x1024x512_S1024x512) (shapeCast S1024x512 x shapeCasts_S1x1024x512_S1024x512))
        0x00000000#32 reduces_S1024x512_S1024 (.inl rfl) rfl) shapeCasts_S1024_S1024x1 (ix2 p u)
      = ∑ h : Fin 512, x (ix3 (0 : Fin 1) p h) * x (ix3 (0 : Fin 1) p h) := by
  refine (shapeCast_a_a1_apply _ shapeCasts_S1024_S1024x1 p u).trans ?_
  refine (Ideal.multiReduction_add_single _ 0x00000000#32 reduces_S1024x512_S1024 (.inl rfl) rfl (ix1 p)).trans ?_
  refine Finset.sum_congr rfl fun (h : Fin 512) _ => ?_
  have e : reduces_S1024x512_S1024.lift (ix1 p) h = ix2 p h :=
    funext fun a => Fin.ext (by match a with | ⟨0, _⟩ => rfl | ⟨1, _⟩ => rfl)
  show shapeCast S1024x512 x shapeCasts_S1x1024x512_S1024x512 (reduces_S1024x512_S1024.lift (ix1 p) h)
      * shapeCast S1024x512 x shapeCasts_S1x1024x512_S1024x512 (reduces_S1024x512_S1024.lift (ix1 p) h) = _
  rw [e, shapeCast_1ab_ab_apply]

/-- The rows of a one-entry block as a matrix. -/
abbrev rows (x : Vec Ideal S1x1024x512 .f32) : FVec Ideal S1024x512 .f32 :=
  shapeCast S1024x512 x shapeCasts_S1x1024x512_S1024x512

/-- The Euclidean norms of the rows of a block, as one column. -/
abbrev normCol (x : Vec Ideal S1x1024x512 .f32) : FVec Ideal S1024x1 .f32 :=
  sqrt (shapeCast S1024x1 (multiReduction (F := Ideal) .add [1] S1024 (mulf (rows x) (rows x)) 0x00000000#32
    reduces_S1024x512_S1024 (.inl rfl) rfl) shapeCasts_S1024_S1024x1)

/-- The body's arithmetic: the matrix of inner products of the rows of the two blocks, over the product of the two norm
    columns (the second laid along the rows) floored by the constant. -/
theorem pay_eq (x0 x1 : Vec Ideal S1x1024x512 .f32) :
    k2_pay1 x0 x1 = shapeCast S1x1024x1024
      (divf
        (matmul dot_S1024x512_S512x1024_S1024x1024_1_0_0_1_n_n none (truncf .bf16 (rows x0) bitsLt_bf16_f32)
          (transpose S512x1024 [1, 0] (truncf .bf16 (rows x1) bitsLt_bf16_f32) transposes_S1024x512_p1_0_S512x1024)
          (constant (F := Ideal) S1024x1024 .f32 0x00000000#32))
        (maximumf
          (mulf (broadcastTo S1024x1024 (normCol x0) broadcasts_S1024x1_S1024x1024)
            (broadcastTo S1024x1024 (transpose S1x1024 [1, 0] (normCol x1) transposes_S1024x1_p1_0_S1x1024)
              broadcasts_S1x1024_S1024x1024))
          (broadcast S1024x1024 (Scalar.ofBits (F := Ideal) .f32 0x322BCC77#32))))
      shapeCasts_S1024x1024_S1x1024x1024 := rfl

/-- A row's norm: the square root of its lane sum of squares. -/
theorem normCol_apply (x : Vec Ideal S1x1024x512 .f32) (p : Fin 1024) (u : Fin 1) :
    normCol x (ix2 p u) = Ideal.sqrt (∑ h : Fin 512, x (ix3 (0 : Fin 1) p h) * x (ix3 (0 : Fin 1) p h)) :=
  congrArg Ideal.sqrt (sumsq_apply x p u)

/-- The product's dimension numbers are the rows-by-columns ones (no batch axis, the left operand contracted on its
    columns, the right on its rows). -/
theorem dot_eq_plain : dot_S1024x512_S512x1024_S1024x1024_1_0_0_1_n_n = DotDims.plain 1024 512 1024 := rfl

/-- The product at `(p, q)`: the inner product of row `p` of the first block with row `q` of the second. -/
theorem dots_apply (x0 x1 : Vec Ideal S1x1024x512 .f32) (p q : Fin 1024) :
    matmul dot_S1024x512_S512x1024_S1024x1024_1_0_0_1_n_n none (truncf .bf16 (rows x0) bitsLt_bf16_f32)
        (transpose S512x1024 [1, 0] (truncf .bf16 (rows x1) bitsLt_bf16_f32) transposes_S1024x512_p1_0_S512x1024)
        (constant (F := Ideal) S1024x1024 .f32 0x00000000#32) (ix2 p q)
      = ∑ h : Fin 512, x0 (ix3 (0 : Fin 1) p h) * x1 (ix3 (0 : Fin 1) q h) := by
  rw [dot_eq_plain]
  refine (Cert.LibDense.matmul_plain_zero_apply none _ _ p q).trans ?_
  refine Finset.sum_congr rfl fun (h : Fin 512) _ => ?_
  refine congrArg₂ (· * ·) ?_ ?_
  · exact shapeCast_1ab_ab_apply x0 shapeCasts_S1x1024x512_S1024x512 p h
  · exact (transpose_ix2_apply _ transposes_S1024x512_p1_0_S512x1024 h q).trans
      (shapeCast_1ab_ab_apply x1 shapeCasts_S1x1024x512_S1024x512 q h)

/-- The denominator at `(p, q)`: the product of the two rows' norms, floored. -/
theorem denom_apply (x0 x1 : Vec Ideal S1x1024x512 .f32) (p q : Fin 1024) :
    maximumf
        (mulf (broadcastTo S1024x1024 (normCol x0) broadcasts_S1024x1_S1024x1024)
          (broadcastTo S1024x1024 (transpose S1x1024 [1, 0] (normCol x1) transposes_S1024x1_p1_0_S1x1024)
            broadcasts_S1x1024_S1024x1024))
        (broadcast S1024x1024 (Scalar.ofBits (F := Ideal) .f32 0x322BCC77#32)) (ix2 p q)
      = max (Ideal.sqrt (∑ h : Fin 512, x0 (ix3 (0 : Fin 1) p h) * x0 (ix3 (0 : Fin 1) p h))
          * Ideal.sqrt (∑ h : Fin 512, x1 (ix3 (0 : Fin 1) q h) * x1 (ix3 (0 : Fin 1) q h))) Cert.Spec.floor := by
  refine congrArg₂ max (congrArg₂ (· * ·) ?_ ?_) rfl
  · exact (broadcastTo_a1_ab_apply _ broadcasts_S1024x1_S1024x1024 p q).trans (normCol_apply x0 p 0)
  · exact (broadcastTo_1b_ab_apply _ broadcasts_S1x1024_S1024x1024 p q).trans
      ((transpose_ix2_apply _ transposes_S1024x1_p1_0_S1x1024 (0 : Fin 1) q).trans (normCol_apply x1 q 0))

/-- THE BODY AT ONE ENTRY: the cosine similarity of row `p` of the first block and row `q` of the second. -/
theorem pay_apply (x0 x1 : Vec Ideal S1x1024x512 .f32) (p q : Fin 1024) :
    k2_pay1 x0 x1 (ix3 (0 : Fin 1) p q)
      = Ideal.div (∑ h : Fin 512, x0 (ix3 (0 : Fin 1) p h) * x1 (ix3 (0 : Fin 1) q h))
          (max (Ideal.sqrt (∑ h : Fin 512, x0 (ix3 (0 : Fin 1) p h) * x0 (ix3 (0 : Fin 1) p h))
            * Ideal.sqrt (∑ h : Fin 512, x1 (ix3 (0 : Fin 1) q h) * x1 (ix3 (0 : Fin 1) q h))) Cert.Spec.floor) := by
  rw [pay_eq]
  refine (shapeCast_ab_1ab_apply _ shapeCasts_S1024x1024_S1x1024x1024 (0 : Fin 1) p q).trans ?_
  exact congrArg₂ Ideal.div (dots_apply x0 x1 p q) (denom_apply x0 x1 p q)

end Payload

/-! ## From the blocks to the array -/

section Blocks

variable (V : (c : Dev nD) → (b : Ref sig .tc) → Buf (Elt Ideal) ((c : Thread nD τ).loc b))

/-- The two projected arrays as the region finds them, as arrays of extended reals. -/
abbrev varr (c : Dev nD) : S16x1024x512.Idx → EReal := V c main_v4
abbrev tarr (c : Dev nD) : S16x1024x512.Idx → EReal := V c main_v7

/-- The batch entry's blocks of the two arrays at a grid point. -/
abbrev vblk (c : Dev nD) (t : Fin cfg2.N) : Vec Ideal S1x1024x512 .f32 := iblk2 V c 0 t
abbrev tblk (c : Dev nD) (t : Fin cfg2.N) : Vec Ideal S1x1024x512 .f32 := iblk2 V c 1 t

/-- The cosine similarities of the two arrays, as one function of the output's index. -/
abbrev cosArr (c : Dev nD) : S16x1024x1024.Idx → EReal := fun i =>
  Cert.Spec.cosine (fun b s h => varr V c (ix3 b s h)) (fun b s h => tarr V c (ix3 b s h)) (i 0) (i 1) (i 2)

/-- Grid point `t` is batch entry `t`. -/
abbrev entry (t : Fin cfg2.N) : Fin 16 := Fin.cast N_2 t

theorem zero3 : (![0, 0, 0] : Fin 3 → Nat) = fun _ => 0 := funext fun a => by fin_cases a <;> rfl

/-- The printed index maps, decided over the grid: every window's block at point `t` is block `(t, 0, 0)`. -/
theorem idx_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0 :=
  (by decide +kernel : ∀ t : Fin grid2.N, _)

/-- The first array's block at point `t` holds batch entry `t` of the array. -/
theorem vblk_apply (c : Dev nD) (t : Fin cfg2.N) (u : Fin 1) (p : Fin 1024) (h : Fin 512) :
    vblk V c t (ix3 u p h) = varr V c (ix3 (entry t) p h) := by
  obtain ⟨e0, e1, e2, -, -, -, -, -, -⟩ := idx_facts t
  show varr V c (((cfg2.win 0).blk t).view.emb (ix3 u p h)) = varr V c (ix3 (entry t) p h)
  refine congrArg (varr V c) (funext fun a => Fin.ext ?_)
  match a with
  | ⟨0, _⟩ => show win2_0.index t (0 : Fin 3) * 1 + 1 * u.val = t.val; rw [e0]; omega
  | ⟨1, _⟩ => show win2_0.index t (1 : Fin 3) * 1024 + 1 * p.val = p.val; rw [e1]; omega
  | ⟨2, _⟩ => show win2_0.index t (2 : Fin 3) * 512 + 1 * h.val = h.val; rw [e2]; omega

/-- The second array's block at point `t` holds batch entry `t` of the array. -/
theorem tblk_apply (c : Dev nD) (t : Fin cfg2.N) (u : Fin 1) (p : Fin 1024) (h : Fin 512) :
    tblk V c t (ix3 u p h) = tarr V c (ix3 (entry t) p h) := by
  obtain ⟨-, -, -, e0, e1, e2, -, -, -⟩ := idx_facts t
  show tarr V c (((cfg2.win 1).blk t).view.emb (ix3 u p h)) = tarr V c (ix3 (entry t) p h)
  refine congrArg (tarr V c) (funext fun a => Fin.ext ?_)
  match a with
  | ⟨0, _⟩ => show win2_1.index t (0 : Fin 3) * 1 + 1 * u.val = t.val; rw [e0]; omega
  | ⟨1, _⟩ => show win2_1.index t (1 : Fin 3) * 1024 + 1 * p.val = p.val; rw [e1]; omega
  | ⟨2, _⟩ => show win2_1.index t (2 : Fin 3) * 512 + 1 * h.val = h.val; rw [e2]; omega

/-- WHAT POINT `t` WRITES BACK is block `t` of the cosine similarities of the two arrays. -/
theorem flushed_eq (c : Dev nD) (t : Fin cfg2.N) :
    (dat2 V c).flushed 2 t = ((cfg2.win 2).blk t).view.read (Elt Ideal) (cosArr V c) := by
  show (cfg2.win 2).cut (grid2.coords t) ((dat2 V c).after 2 t) = _
  rw [after2_2]
  unfold out2_2
  rw [View.canon_unit_zero zero3]
  simp only [View.ld_unit_zero (S := S1x1024x512) zero3]
  obtain ⟨-, -, -, -, -, -, e0, e1, e2⟩ := idx_facts t
  funext j
  obtain ⟨u, p, q, rfl⟩ : ∃ (u : Fin 1) (p q : Fin 1024), (j : S1x1024x1024.Idx) = ix3 u p q :=
    ⟨j 0, j 1, j 2, eq_ix3 (n0 := 1) (n1 := 1024) (n2 := 1024) j⟩
  obtain rfl : u = 0 := Subsingleton.elim _ _
  show k2_pay1 (vblk V c t) (tblk V c t) (ix3 (0 : Fin 1) p q)
    = cosArr V c (((cfg2.win 2).blk t).view.emb (ix3 (0 : Fin 1) p q))
  have hemb : ((cfg2.win 2).blk t).view.emb (ix3 (0 : Fin 1) p q) = (ix3 (entry t) p q : S16x1024x1024.Idx) :=
    funext fun a => Fin.ext (by
      match a with
      | ⟨0, _⟩ => show win2_2.index t (0 : Fin 3) * 1 + 1 * 0 = t.val; rw [e0]; omega
      | ⟨1, _⟩ => show win2_2.index t (1 : Fin 3) * 1024 + 1 * p.val = p.val; rw [e1]; omega
      | ⟨2, _⟩ => show win2_2.index t (2 : Fin 3) * 1024 + 1 * q.val = q.val; rw [e2]; omega)
  rw [hemb]
  refine (pay_apply (vblk V c t) (tblk V c t) p q).trans ?_
  have hv : ∀ (r : Fin 1024) (h : Fin 512), vblk V c t (ix3 (0 : Fin 1) r h) = varr V c (ix3 (entry t) r h) :=
    fun r h => vblk_apply V c t 0 r h
  have ht : ∀ (r : Fin 1024) (h : Fin 512), tblk V c t (ix3 (0 : Fin 1) r h) = tarr V c (ix3 (entry t) r h) :=
    fun r h => tblk_apply V c t 0 r h
  simp only [hv, ht]
  rfl

/-- An index of the output array is in point `t`'s block iff each coordinate is in the block's range on its axis. -/
theorem mem_blk (t : Fin cfg2.N) (i : S16x1024x1024.Idx) :
    i ∈ ((cfg2.win 2).blk t).view.set ↔ ∀ a : Fin 3, win2_2.index t a * S1x1024x1024.size a ≤ (i a).val
      ∧ (i a).val < win2_2.index t a * S1x1024x1024.size a + S1x1024x1024.size a := by
  show i ∈ ((View.whole main_v8).slice (win2_2.rect t)).set ↔ _
  rw [View.set_slice_whole, Rect.mem_set_unit]
  exact Iff.rfl

/-- Every index of the output array is in the block of the point of its batch entry. -/
theorem cover (i : S16x1024x1024.Idx) :
    ∃ t : Fin cfg2.N, (cfg2.win 2).flush t = true ∧ i ∈ ((cfg2.win 2).blk t).view.set := by
  have hi0 : (i 0).val < 16 := (i 0).isLt
  have hi1 : (i 1).val < 1024 := (i 1).isLt
  have hi2 : (i 2).val < 1024 := (i 2).isLt
  obtain ⟨t, ht⟩ : ∃ t : Fin cfg2.N, t.val = (i 0).val := ⟨Fin.cast N_2.symm ⟨(i 0).val, hi0⟩, rfl⟩
  obtain ⟨-, -, -, -, -, -, e0, e1, e2⟩ := idx_facts t
  refine ⟨t, flush2_2 t, ?_⟩
  rw [mem_blk]
  intro a
  match a with
  | ⟨0, _⟩ =>
    show win2_2.index t (0 : Fin 3) * 1 ≤ (i 0).val ∧ (i 0).val < win2_2.index t (0 : Fin 3) * 1 + 1
    rw [e0]; omega
  | ⟨1, _⟩ =>
    show win2_2.index t (1 : Fin 3) * 1024 ≤ (i 1).val ∧ (i 1).val < win2_2.index t (1 : Fin 3) * 1024 + 1024
    rw [e1]; omega
  | ⟨2, _⟩ =>
    show win2_2.index t (2 : Fin 3) * 1024 ≤ (i 2).val ∧ (i 2).val < win2_2.index t (2 : Fin 3) * 1024 + 1024
    rw [e2]; omega

end Blocks

variable (V : (c : Dev nD) → (b : Ref sig .tc) → Buf (Elt Ideal) ((c : Thread nD τ).loc b))

/-- After the sixteen batch entries, the output array holds the cosine similarities of the rows of the two projected arrays
    the region found. -/
theorem value (c : Dev nD) :
    (dat2 V c).arrAt 2 cfg2.N = fun i : S16x1024x1024.Idx =>
      Cert.Spec.cosine (fun b s h => V c main_v4 (ix3 b s h)) (fun b s h => V c main_v7 (ix3 b s h)) (i 0) (i 1) (i 2) := by
  exact (dat2 V c).arrAt_eq_of_cover 2 (cosArr V c) (fun t _ => flushed_eq V c t) cover

end Cert.KernelIdeal.Region2

end
-- ==== Proof.Chain.lean ====
import proofs.«153177_j49005576847522_1_alg».proof.Defs
import proofs.«153177_j49005576847522_1_alg».proof.Proof.Gen.KernelIdeal.Frame
import proofs.«153177_j49005576847522_1_alg».proof.Proof.Spec
import proofs.«153177_j49005576847522_1_alg».proof.Proof.Region0
import proofs.«153177_j49005576847522_1_alg».proof.Proof.Region1
import proofs.«153177_j49005576847522_1_alg».proof.Proof.Region2
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

/-! ## Reshapes between a batch of row blocks and the flat list of rows -/

section Casts
variable {α : Type}

/-- A flat `[n, c]` array cast to `[a, b, c]` reads, at `(i, j, k)`, the operand's row `i·b + j` at column `k`. -/
theorem shapeCast_rows_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-- An `[a, b, c]` array cast to the flat `[n, c]` reads, at row `i·b + j` and column `k`, the operand at `(i, j, k)`. -/
theorem shapeCast_flat_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_two, Shape.rowMajor_val_three]
    show (i.val * b + j.val) * c + k.val = r.val * c + k.val
    rw [hr])

end Casts

variable (m : (ℓ : Loc nD τ sig) → Buf (Elt Ideal) ℓ) (ρ : Dev nD → PrngReg)

/-! ## The argument arrays, as arrays of extended reals -/

abbrev A0 (c : Dev nD) : S16x1024x1024.Idx → EReal := m ((c : Thread nD τ).loc main_arg0)
abbrev A1 (c : Dev nD) : S16x1024x768.Idx → EReal := m ((c : Thread nD τ).loc main_arg1)
abbrev A2 (c : Dev nD) : S512x1024.Idx → EReal := m ((c : Thread nD τ).loc main_arg2)
abbrev A3 (c : Dev nD) : S512.Idx → EReal := m ((c : Thread nD τ).loc main_arg3)
abbrev A4 (c : Dev nD) : S512x768.Idx → EReal := m ((c : Thread nD τ).loc main_arg4)
abbrev A5 (c : Dev nD) : S512.Idx → EReal := m ((c : Thread nD τ).loc main_arg5)

/-! ## What the first projection's region finds, and what it leaves -/

theorem V1_v0 (c : Dev nD) :
    Region0.xarr (V1 m ρ) c = shapeCast S16384x1024 (A0 m c) shapeCasts_S16x1024x1024_S16384x1024 := by
  show StableHlo.after hostOps0 (W0 m ρ c) (Proc.devRef .tc main_v0) = _
  dsimp only [hostOps0]
  after_results
  rfl

theorem V1_arg2 (c : Dev nD) : Region0.warr (V1 m ρ) c = A2 m c := by
  show StableHlo.after hostOps0 (W0 m ρ c) (Proc.devRef .tc main_arg2) = _
  dsimp only [hostOps0]
  after_results

theorem V1_v2 (c : Dev nD) : Region0.barr (V1 m ρ) c = shapeCast S1x512 (A3 m c) shapeCasts_S512_S1x512 := by
  show StableHlo.after hostOps0 (W0 m ρ c) (Proc.devRef .tc main_v2) = _
  dsimp only [hostOps0]
  after_results
  rfl

/-- The first projection's output array after its region. -/
abbrev P3 (c : Dev nD) : S16384x512.Idx → EReal := W2 m ρ c (Proc.devRef .tc main_v3)

/-- Row `b·1024 + s` of the first region's output is row `(b, s)` of the first projection of the arguments. -/
theorem P3_apply (c : Dev nD) (b : Fin 16) (s : Fin 1024) (h : Fin 512) (r : Fin 16384) (hr : r.val = b.val * 1024 + s.val) :
    P3 m ρ c (ix2 r h)
      = Cert.Spec.proj (fun b s d => A0 m c (ix3 b s d)) (fun h d => A2 m c (ix2 h d)) (fun h => A3 m c (ix1 h)) b s h := by
  have e : P3 m ρ c = (dat0 (V1 m ρ) c).arrAt 3 cfg0.N := W2_arr m ρ c 3
  rw [e, Region0.value]
  show (∑ d : Fin 1024, Region0.xarr (V1 m ρ) c (ix2 r d) * Region0.warr (V1 m ρ) c (ix2 h d))
      + Region0.barr (V1 m ρ) c (ix2 (0 : Fin 1) h) = _
  rw [V1_v0, V1_arg2, V1_v2]
  unfold Cert.Spec.proj
  congr 1
  · refine Finset.sum_congr rfl fun d _ => ?_
    rw [shapeCast_flat_apply (A0 m c) shapeCasts_S16x1024x1024_S16384x1024 b s d r hr]
  · exact shapeCast_a_1a_apply (A3 m c) shapeCasts_S512_S1x512 0 h

/-! ## The second projection's region -/

/-- No operation between the two regions, and not the first region, writes the second projection's inputs. -/
theorem V3_v1 (c : Dev nD) :
    Region1.xarr (V3 m ρ) c = shapeCast S16384x768 (A1 m c) shapeCasts_S16x1024x768_S16384x768 := by
  show StableHlo.after hostOps1 (W2 m ρ c) (Proc.devRef .tc main_v1) = _
  dsimp only [hostOps1]
  after_results
  rw [W2_of_ne m ρ c main_v1 (by decide)]
  show StableHlo.after hostOps0 (W0 m ρ c) (Proc.devRef .tc main_v1) = _
  dsimp only [hostOps0]
  after_results
  rfl

theorem V3_arg4 (c : Dev nD) : Region1.warr (V3 m ρ) c = A4 m c := by
  show StableHlo.after hostOps1 (W2 m ρ c) (Proc.devRef .tc main_arg4) = _
  dsimp only [hostOps1]
  after_results
  rw [W2_of_ne m ρ c main_arg4 (by decide)]
  show StableHlo.after hostOps0 (W0 m ρ c) (Proc.devRef .tc main_arg4) = _
  dsimp only [hostOps0]
  after_results

theorem V3_v5 (c : Dev nD) : Region1.barr (V3 m ρ) c = shapeCast S1x512 (A5 m c) shapeCasts_S512_S1x512 := by
  show StableHlo.after hostOps1 (W2 m ρ c) (Proc.devRef .tc main_v5) = _
  dsimp only [hostOps1]
  after_results
  rw [W2_of_ne m ρ c main_arg5 (by decide)]
  show shapeCast S1x512 (StableHlo.after hostOps0 (W0 m ρ c) (Proc.devRef .tc main_arg5)) shapeCasts_S512_S1x512 = _
  dsimp only [hostOps0]
  after_results

/-- The second projection's output array after its region. -/
abbrev P6 (c : Dev nD) : S16384x512.Idx → EReal := W4 m ρ c (Proc.devRef .tc main_v6)

theorem P6_apply (c : Dev nD) (b : Fin 16) (s : Fin 1024) (h : Fin 512) (r : Fin 16384) (hr : r.val = b.val * 1024 + s.val) :
    P6 m ρ c (ix2 r h)
      = Cert.Spec.proj (fun b s d => A1 m c (ix3 b s d)) (fun h d => A4 m c (ix2 h d)) (fun h => A5 m c (ix1 h)) b s h := by
  have e : P6 m ρ c = (dat1 (V3 m ρ) c).arrAt 3 cfg1.N := W4_arr m ρ c 3
  rw [e, Region1.value]
  show (∑ d : Fin 768, Region1.xarr (V3 m ρ) c (ix2 r d) * Region1.warr (V3 m ρ) c (ix2 h d))
      + Region1.barr (V3 m ρ) c (ix2 (0 : Fin 1) h) = _
  rw [V3_v1, V3_arg4, V3_v5]
  unfold Cert.Spec.proj
  congr 1
  · refine Finset.sum_congr rfl fun d _ => ?_
    rw [shapeCast_flat_apply (A1 m c) shapeCasts_S16x1024x768_S16384x768 b s d r hr]
  · exact shapeCast_a_1a_apply (A5 m c) shapeCasts_S512_S1x512 0 h

/-! ## What the cosine region finds -/

/-- The two projected arrays as the last region finds them. -/
abbrev Q4 (c : Dev nD) : S16x1024x512.Idx → EReal := V5 m ρ c main_v4
abbrev Q7 (c : Dev nD) : S16x1024x512.Idx → EReal := V5 m ρ c main_v7

theorem Q4_eq (c : Dev nD) : Q4 m ρ c = shapeCast S16x1024x512 (P3 m ρ c) shapeCasts_S16384x512_S16x1024x512 := by
  show StableHlo.after hostOps2 (W4 m ρ c) (Proc.devRef .tc main_v4) = _
  dsimp only [hostOps2]
  after_results
  rw [W4_of_ne m ρ c main_v4 (by decide)]
  show StableHlo.after hostOps1 (W2 m ρ c) (Proc.devRef .tc main_v4) = _
  dsimp only [hostOps1]
  after_results
  rfl

theorem Q7_eq (c : Dev nD) : Q7 m ρ c = shapeCast S16x1024x512 (P6 m ρ c) shapeCasts_S16384x512_S16x1024x512 := by
  show StableHlo.after hostOps2 (W4 m ρ c) (Proc.devRef .tc main_v7) = _
  dsimp only [hostOps2]
  after_results
  rfl

theorem Q4_apply (c : Dev nD) (b : Fin 16) (s : Fin 1024) (h : Fin 512) :
    Q4 m ρ c (ix3 b s h)
      = Cert.Spec.proj (fun b s d => A0 m c (ix3 b s d)) (fun h d => A2 m c (ix2 h d)) (fun h => A3 m c (ix1 h)) b s h := by
  rw [Q4_eq, shapeCast_rows_apply (P3 m ρ c) shapeCasts_S16384x512_S16x1024x512 b s h
    ⟨b.val * 1024 + s.val, by have := b.isLt; have := s.isLt; omega⟩ rfl]
  exact P3_apply m ρ c b s h _ rfl

theorem Q7_apply (c : Dev nD) (b : Fin 16) (s : Fin 1024) (h : Fin 512) :
    Q7 m ρ c (ix3 b s h)
      = Cert.Spec.proj (fun b s d => A1 m c (ix3 b s d)) (fun h d => A4 m c (ix2 h d)) (fun h => A5 m c (ix1 h)) b s h := by
  rw [Q7_eq, shapeCast_rows_apply (P6 m ρ c) shapeCasts_S16384x512_S16x1024x512 b s h
    ⟨b.val * 1024 + s.val, by have := b.isLt; have := s.isLt; omega⟩ rfl]
  exact P6_apply m ρ c b s h _ rfl

/-! ## The result -/

/-- What the last region leaves in the result array is the cosine-similarity array of the two projections of the
    arguments. -/
theorem result (c : Dev nD) :
    W6 m ρ c (Proc.devRef .tc main_v8) = Cert.Spec.G (A0 m c) (A1 m c) (A2 m c) (A3 m c) (A4 m c) (A5 m c) := by
  have e : W6 m ρ c (Proc.devRef .tc main_v8) = (dat2 (V5 m ρ) c).arrAt 2 cfg2.N := W6_arr m ρ c 2
  rw [e, Region2.value]
  funext i
  unfold Cert.Spec.G
  show Cert.Spec.cosine (fun b s h => Q4 m ρ c (ix3 b s h)) (fun b s h => Q7 m ρ c (ix3 b s h)) (i 0) (i 1) (i 2) = _
  rw [show (fun b s h => Q4 m ρ c (ix3 b s h)) = _ from funext fun b => funext fun s => funext fun h => Q4_apply m ρ c b s h,
    show (fun b s h => Q7 m ρ c (ix3 b s h)) = _ from funext fun b => funext fun s => funext fun h => Q7_apply m ρ c b s h]

end Cert.KernelIdeal.Chain

end
-- ==== Proof.RefValue.lean ====
import proofs.«153177_j49005576847522_1_alg».proof.Defs
import proofs.«153177_j49005576847522_1_alg».proof.Proof.Gen.ReferenceIdeal.Run
import proofs.«153177_j49005576847522_1_alg».proof.Proof.Gen.ReferenceIdeal.Read
import proofs.«153177_j49005576847522_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen

/-- The first projection at an index: entry `h` of row `(b, s)` is `∑ d, a0 b s d · a2 h d + a3 h`. -/
theorem proj_first (a0 : FVec Ideal S16x1024x1024 .f32) (a2 : FVec Ideal S512x1024 .f32) (a3 : FVec Ideal S512 .f32)
    (b : Fin 16) (s : Fin 1024) (h : Fin 512) :
    Read.val_main_v3 (F := Ideal) a0 a2 a3 (ix3 b s h)
      = Cert.Spec.proj (fun b s d => a0 (ix3 b s d)) (fun h d => a2 (ix2 h d)) (fun h => a3 (ix1 h)) b s h := by
  have el : ∀ k : Fin 1024, Read.lidx_main_v0 (ix3 b s h) k = ix3 b s k := fun k =>
    funext fun a => Fin.ext (by match a with | ⟨0, _⟩ => rfl | ⟨1, _⟩ => rfl | ⟨2, _⟩ => rfl)
  have er : ∀ k : Fin 1024, Read.ridx_main_v0 (ix3 b s h) k = ix2 h k := fun k =>
    funext fun a => Fin.ext (by match a with | ⟨0, _⟩ => rfl | ⟨1, _⟩ => rfl)
  have eb : Read.idx_main_v1 (Read.idx_main_v2 (ix3 b s h)) = ix1 h :=
    funext fun a => Fin.ext (by match a with | ⟨0, _⟩ => rfl)
  rw [Read.val_main_v3_apply, Read.val_main_v0_apply, Read.val_main_v2_apply, Read.val_main_v1_apply]
  simp only [el, er, eb, Ideal.addf_def]
  rfl

/-- The second projection at an index: entry `h` of row `(b, s)` is `∑ d, a1 b s d · a4 h d + a5 h`. -/
theorem proj_second (a1 : FVec Ideal S16x1024x768 .f32) (a4 : FVec Ideal S512x768 .f32) (a5 : FVec Ideal S512 .f32)
    (b : Fin 16) (s : Fin 1024) (h : Fin 512) :
    Read.val_main_v7 (F := Ideal) a1 a4 a5 (ix3 b s h)
      = Cert.Spec.proj (fun b s d => a1 (ix3 b s d)) (fun h d => a4 (ix2 h d)) (fun h => a5 (ix1 h)) b s h := by
  have el : ∀ k : Fin 768, Read.lidx_main_v4 (ix3 b s h) k = ix3 b s k := fun k =>
    funext fun a => Fin.ext (by match a with | ⟨0, _⟩ => rfl | ⟨1, _⟩ => rfl | ⟨2, _⟩ => rfl)
  have er : ∀ k : Fin 768, Read.ridx_main_v4 (ix3 b s h) k = ix2 h k := fun k =>
    funext fun a => Fin.ext (by match a with | ⟨0, _⟩ => rfl | ⟨1, _⟩ => rfl)
  have eb : Read.idx_main_v5 (Read.idx_main_v6 (ix3 b s h)) = ix1 h :=
    funext fun a => Fin.ext (by match a with | ⟨0, _⟩ => rfl)
  rw [Read.val_main_v7_apply, Read.val_main_v4_apply, Read.val_main_v6_apply, Read.val_main_v5_apply]
  simp only [el, er, eb, Ideal.addf_def]
  rfl

/-- The Euclidean norm of a row of the first projection. -/
theorem norm_first (a0 : FVec Ideal S16x1024x1024 .f32) (a2 : FVec Ideal S512x1024 .f32) (a3 : FVec Ideal S512 .f32)
    (b : Fin 16) (s : Fin 1024) :
    Read.val_main_v9 (F := Ideal) a0 a2 a3 (ix2 b s)
      = Ideal.sqrt (∑ h : Fin 512,
          Cert.Spec.proj (fun b s d => a0 (ix3 b s d)) (fun h d => a2 (ix2 h d)) (fun h => a3 (ix1 h)) b s h
            * Cert.Spec.proj (fun b s d => a0 (ix3 b s d)) (fun h d => a2 (ix2 h d)) (fun h => a3 (ix1 h)) b s h) := by
  have ei : ∀ k : Fin 512, Read.idx_main_call0_v1 (ix2 b s) k = ix3 b s k := fun k =>
    funext fun a => Fin.ext (by match a with | ⟨0, _⟩ => rfl | ⟨1, _⟩ => rfl | ⟨2, _⟩ => rfl)
  rw [Read.val_main_v9_apply, Read.val_main_call0_v1_apply, Read.val_main_call0_cst_apply]
  simp only [Read.val_main_call0_v0_apply, ei, proj_first, Ideal.hostUnary_sqrt_def, Ideal.mulf_def, Ideal.ofBits_def,
    Ideal.ofBits_zero_f32, zero_add]

/-- The Euclidean norm of a row of the second projection. -/
theorem norm_second (a1 : FVec Ideal S16x1024x768 .f32) (a4 : FVec Ideal S512x768 .f32) (a5 : FVec Ideal S512 .f32)
    (b : Fin 16) (s : Fin 1024) :
    Read.val_main_v10 (F := Ideal) a1 a4 a5 (ix2 b s)
      = Ideal.sqrt (∑ h : Fin 512,
          Cert.Spec.proj (fun b s d => a1 (ix3 b s d)) (fun h d => a4 (ix2 h d)) (fun h => a5 (ix1 h)) b s h
            * Cert.Spec.proj (fun b s d => a1 (ix3 b s d)) (fun h d => a4 (ix2 h d)) (fun h => a5 (ix1 h)) b s h) := by
  have ei : ∀ k : Fin 512, Read.idx_main_call1_v1 (ix2 b s) k = ix3 b s k := fun k =>
    funext fun a => Fin.ext (by match a with | ⟨0, _⟩ => rfl | ⟨1, _⟩ => rfl | ⟨2, _⟩ => rfl)
  rw [Read.val_main_v10_apply, Read.val_main_call1_v1_apply, Read.val_main_call1_cst_apply]
  simp only [Read.val_main_call1_v0_apply, ei, proj_second, Ideal.hostUnary_sqrt_def, Ideal.mulf_def, Ideal.ofBits_def,
    Ideal.ofBits_zero_f32, zero_add]

/-- The whole reference at an index: the cosine similarity of row `p` of the first projection and row `q` of the
    second, within batch entry `b`. -/
theorem ref_at (a0 : FVec Ideal S16x1024x1024 .f32) (a1 : FVec Ideal S16x1024x768 .f32) (a2 : FVec Ideal S512x1024 .f32)
    (a3 : FVec Ideal S512 .f32) (a4 : FVec Ideal S512x768 .f32) (a5 : FVec Ideal S512 .f32)
    (b : Fin 16) (p q : Fin 1024) :
    Read.val_main_v18 (F := Ideal) a0 a1 a2 a3 a4 a5 (ix3 b p q)
      = Cert.Spec.cosine
          (Cert.Spec.proj (fun b s d => a0 (ix3 b s d)) (fun h d => a2 (ix2 h d)) (fun h => a3 (ix1 h)))
          (Cert.Spec.proj (fun b s d => a1 (ix3 b s d)) (fun h d => a4 (ix2 h d)) (fun h => a5 (ix1 h))) b p q := by
  have el : ∀ k : Fin 512, Read.lidx_main_v8 (ix3 b p q) k = ix3 b p k := fun k =>
    funext fun a => Fin.ext (by match a with | ⟨0, _⟩ => rfl | ⟨1, _⟩ => rfl | ⟨2, _⟩ => rfl)
  have er : ∀ k : Fin 512, Read.ridx_main_v8 (ix3 b p q) k = ix3 b q k := fun k =>
    funext fun a => Fin.ext (by match a with | ⟨0, _⟩ => rfl | ⟨1, _⟩ => rfl | ⟨2, _⟩ => rfl)
  have en : Read.idx_main_v11 (Read.idx_main_v13 (ix3 b p q)) = ix2 b p :=
    funext fun a => Fin.ext (by match a with | ⟨0, _⟩ => rfl | ⟨1, _⟩ => rfl)
  have em : Read.idx_main_v12 (Read.idx_main_v14 (ix3 b p q)) = ix2 b q :=
    funext fun a => Fin.ext (by match a with | ⟨0, _⟩ => rfl | ⟨1, _⟩ => rfl)
  rw [Read.val_main_v18_apply, Read.val_main_v8_apply, Read.val_main_v17_apply, Read.val_main_v15_apply,
    Read.val_main_v13_apply, Read.val_main_v11_apply, Read.val_main_v14_apply, Read.val_main_v12_apply,
    Read.val_main_v16_apply, Read.val_main_cst_apply]
  simp only [el, er, en, em, proj_first, proj_second, norm_first, norm_second, Ideal.hostDivf_def, Ideal.maximumf_def,
    Ideal.mulf_def, Ideal.ofBits_def]
  rfl

/-- The reference's composed term of its six argument arrays is the cosine-similarity array of the two projections. -/
theorem ref_eq (a0 : FVec Ideal S16x1024x1024 .f32) (a1 : FVec Ideal S16x1024x768 .f32) (a2 : FVec Ideal S512x1024 .f32)
    (a3 : FVec Ideal S512 .f32) (a4 : FVec Ideal S512x768 .f32) (a5 : FVec Ideal S512 .f32) :
    Host.divf (Host.dotGeneral dot_S16x1024x512_S16x1024x512_S16x1024x1024_2_2_1_1_0_0 none (addf (Host.dotGeneral dot_S16x1024x1024_S512x1024_S16x1024x512_2_1_01_0_n_n none a0 a2) (broadcastInDim S16x1024x512 ![0, 1, 2] bcast_S1x1x512_S16x1024x512_0_1_2 (broadcastInDim S1x1x512 ![2] bcast_S512_S1x1x512_2 a3))) (addf (Host.dotGeneral dot_S16x1024x768_S512x768_S16x1024x512_2_1_01_0_n_n none a1 a4) (broadcastInDim S16x1024x512 ![0, 1, 2] bcast_S1x1x512_S16x1024x512_0_1_2 (broadcastInDim S1x1x512 ![2] bcast_S512_S1x1x512_2 a5)))) (maximumf (mulf (broadcastInDim S16x1024x1024 ![0, 1, 2] bcast_S16x1024x1_S16x1024x1024_0_1_2 (broadcastInDim S16x1024x1 ![0, 1] bcast_S16x1024_S16x1024x1_0_1 (Host.sqrt (Host.reduceAdd (mulf (addf (Host.dotGeneral dot_S16x1024x1024_S512x1024_S16x1024x512_2_1_01_0_n_n none a0 a2) (broadcastInDim S16x1024x512 ![0, 1, 2] bcast_S1x1x512_S16x1024x512_0_1_2 (broadcastInDim S1x1x512 ![2] bcast_S512_S1x1x512_2 a3))) (addf (Host.dotGeneral dot_S16x1024x1024_S512x1024_S16x1024x512_2_1_01_0_n_n none a0 a2) (broadcastInDim S16x1024x512 ![0, 1, 2] bcast_S1x1x512_S16x1024x512_0_1_2 (broadcastInDim S1x1x512 ![2] bcast_S512_S1x1x512_2 a3)))) (constant S_ .f32 0x00000000#32) reducesTo_S16x1024x512_S16x1024_d2 h_S_)))) (broadcastInDim S16x1024x1024 ![0, 1, 2] bcast_S16x1x1024_S16x1024x1024_0_1_2 (broadcastInDim S16x1x1024 ![0, 2] bcast_S16x1024_S16x1x1024_0_2 (Host.sqrt (Host.reduceAdd (mulf (addf (Host.dotGeneral dot_S16x1024x768_S512x768_S16x1024x512_2_1_01_0_n_n none a1 a4) (broadcastInDim S16x1024x512 ![0, 1, 2] bcast_S1x1x512_S16x1024x512_0_1_2 (broadcastInDim S1x1x512 ![2] bcast_S512_S1x1x512_2 a5))) (addf (Host.dotGeneral dot_S16x1024x768_S512x768_S16x1024x512_2_1_01_0_n_n none a1 a4) (broadcastInDim S16x1024x512 ![0, 1, 2] bcast_S1x1x512_S16x1024x512_0_1_2 (broadcastInDim S1x1x512 ![2] bcast_S512_S1x1x512_2 a5)))) (constant S_ .f32 0x00000000#32) reducesTo_S16x1024x512_S16x1024_d2 h_S_))))) (broadcastInDim S16x1024x1024 ![] bcast_S_S16x1024x1024 (constant S_ .f32 0x322BCC77#32)))
      = Cert.Spec.G a0 a1 a2 a3 a4 a5 := by
  refine (Read.val_main_v18_eq (F := Ideal) a0 a1 a2 a3 a4 a5).trans ?_
  funext i
  obtain ⟨b, p, q, rfl⟩ : ∃ (b : Fin 16) (p q : Fin 1024), i = ix3 b p q := ⟨i 0, i 1, i 2, eq_ix3 i⟩
  exact ref_at a0 a1 a2 a3 a4 a5 b p q

end Cert.ReferenceIdeal.RefValue

end
-- ==== Proof.lean ====
/-
  The kernel computes, in three launches, two affine projections of a batch of 16 sequences of 1024 feature rows to
  512 coordinates each (row tiles of 1024 rows, the product taken against the transposed weight matrix, the bias row
  added), and then, batch entry by batch entry, the matrix of cosine similarities between the rows of the two
  projections: the inner products of the rows, divided by the product of the rows' Euclidean norms floored at a small
  constant. The reference computes the same array with three contractions on the host, its norms by a sum of squares and
  a square root. Over the extended reals a change of float format is the identity, a product accumulated into a zero
  array and the host's contraction are one sum, and a lane sum and the host's sum from zero are one sum, so both
  programs end with the array `Cert.Spec.G` of the six arguments, index by index; no law used here needs the inputs
  finite.

  The pieces: `Spec` states the function; `Region0`, `Region1`, `Region2` read what each launch leaves in its
  output array from what it finds; `Chain` follows the arrays through the reshapes between the launches from the
  arguments to the result; `RunResult` is the program's run with its result array named; `RefValue` reads the
  reference's composed term at an index. The three frames are the programs' runs with the result dropped; the
  idealization rewrote nothing, so there is nothing to preserve.
-/
import proofs.«153177_j49005576847522_1_alg».proof.Defs
import proofs.«153177_j49005576847522_1_alg».proof.Proof.Gen.Kernel
import proofs.«153177_j49005576847522_1_alg».proof.Proof.Gen.Kernel.Skeleton
import proofs.«153177_j49005576847522_1_alg».proof.Proof.Gen.Kernel.Launch
import proofs.«153177_j49005576847522_1_alg».proof.Proof.Gen.Kernel.Points
import proofs.«153177_j49005576847522_1_alg».proof.Proof.Gen.Kernel.Frame
import proofs.«153177_j49005576847522_1_alg».proof.Proof.Gen.KernelIdeal
import proofs.«153177_j49005576847522_1_alg».proof.Proof.Gen.KernelIdeal.Skeleton
import proofs.«153177_j49005576847522_1_alg».proof.Proof.Gen.KernelIdeal.Launch
import proofs.«153177_j49005576847522_1_alg».proof.Proof.Gen.KernelIdeal.Points
import proofs.«153177_j49005576847522_1_alg».proof.Proof.Gen.KernelIdeal.Frame
import proofs.«153177_j49005576847522_1_alg».proof.Proof.Gen.ReferenceIdeal
import proofs.«153177_j49005576847522_1_alg».proof.Proof.Gen.ReferenceIdeal.Run
import proofs.«153177_j49005576847522_1_alg».proof.Proof.Gen.Pre_finite_inputs
import proofs.«153177_j49005576847522_1_alg».proof.Proof.RunResult
import proofs.«153177_j49005576847522_1_alg».proof.Proof.Chain
import proofs.«153177_j49005576847522_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the cosine-similarity array of the two projections of the arguments. -/
theorem algebraic : Cert.algebraic_KernelIdeal_ReferenceIdeal := by
  intro m ρ m' ρ' _ hagree
  refine ⟨fun c => Cert.Spec.G (Cert.KernelIdeal.Chain.A0 m c) (Cert.KernelIdeal.Chain.A1 m c) (Cert.KernelIdeal.Chain.A2 m c)
    (Cert.KernelIdeal.Chain.A3 m c) (Cert.KernelIdeal.Chain.A4 m c) (Cert.KernelIdeal.Chain.A5 m c), ?_, ?_⟩
  · exact (θ_run Cert.KernelIdeal.defs _ _).mono
      (fun _ h c => ⟨(h c).1.trans (Cert.KernelIdeal.Chain.result m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact Cert.ReferenceIdeal.RefValue.ref_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
